-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x300x2048 : Shape := ⟨4, ![32, 3, 300, 2048]⟩
abbrev S_ : Shape := ⟨0, ![]⟩

class Facts : Prop where
  bcast_S_S32x3x300x2048 : S_.BroadcastsInDim S32x3x300x2048 (![] : Fin 0 → Fin S32x3x300x2048.rank)
  reducesTo_S32x3x300x2048_S_d0_1_2_3 : S32x3x300x2048.ReducesTo [0, 1, 2, 3] S_
  h_S_ : 0 < S_.numel

variable [Facts]

def fn {F : FTy → Type} [FloatOps F] (main_arg0 : FVec F S32x3x300x2048 .f32) (main_arg1 : FVec F S32x3x300x2048 .f32) : IVec S_ 1 :=
  let main_v0 : FVec F S32x3x300x2048 .f32 := Host.absf main_arg0
  let main_cst : FVec F S_ .f32 := constant S_ .f32 0x7F800000#32
  let main_v1 : FVec F S32x3x300x2048 .f32 := broadcastInDim S32x3x300x2048 ![] bcast_S_S32x3x300x2048 main_cst
  let main_v2 : IVec S32x3x300x2048 1 := cmpf .olt main_v0 main_v1
  let main_c : IVec S_ 1 := constantI S_ 1 1#1
  let main_v3 : IVec S_ 1 := (fun x v => Host.reduce IntOp.andi x v reducesTo_S32x3x300x2048_S_d0_1_2_3 h_S_) main_v2 main_c
  let main_v4 : FVec F S32x3x300x2048 .f32 := Host.absf main_arg1
  let main_cst_0 : FVec F S_ .f32 := constant S_ .f32 0x7F800000#32
  let main_v5 : FVec F S32x3x300x2048 .f32 := broadcastInDim S32x3x300x2048 ![] bcast_S_S32x3x300x2048 main_cst_0
  let main_v6 : IVec S32x3x300x2048 1 := cmpf .olt main_v4 main_v5
  let main_c_1 : IVec S_ 1 := constantI S_ 1 1#1
  let main_v7 : IVec S_ 1 := (fun x v => Host.reduce IntOp.andi x v reducesTo_S32x3x300x2048_S_d0_1_2_3 h_S_) main_v6 main_c_1
  let main_v8 : IVec S_ 1 := andi main_v3 main_v7
  main_v8
-- ==== Kernel.lean ====
abbrev S32x3x300x2048 : Shape := ⟨4, ![32, 3, 300, 2048]⟩
abbrev S96x300x2048 : Shape := ⟨3, ![96, 300, 2048]⟩
abbrev S96x2048 : Shape := ⟨2, ![96, 2048]⟩
abbrev S8x300x256 : Shape := ⟨3, ![8, 300, 256]⟩
abbrev S8x256 : Shape := ⟨2, ![8, 256]⟩
abbrev S96x2048x1 : Shape := ⟨3, ![96, 2048, 1]⟩
abbrev S96x2048x3 : Shape := ⟨3, ![96, 2048, 3]⟩
abbrev S32x6144x3 : Shape := ⟨3, ![32, 6144, 3]⟩

abbrev nBuf : Space → Nat
  | .hbm => 12
  | .vmem => 10
  | .smem => 0
  | _ => 0

abbrev bufTy : (tb : Table) → Fin (tcTables nBuf tb) → BufTy
  | .hbm, ⟨0, _⟩ => ⟨S32x3x300x2048, .f32⟩
  | .hbm, ⟨1, _⟩ => ⟨S32x3x300x2048, .f32⟩
  | .hbm, ⟨2, _⟩ => ⟨S96x300x2048, .f32⟩
  | .hbm, ⟨3, _⟩ => ⟨S96x300x2048, .f32⟩
  | .hbm, ⟨4, _⟩ => ⟨S96x2048, .f32⟩
  | .hbm, ⟨5, _⟩ => ⟨S96x2048, .f32⟩
  | .hbm, ⟨6, _⟩ => ⟨S96x2048, .f32⟩
  | .hbm, ⟨7, _⟩ => ⟨S96x2048x1, .f32⟩
  | .hbm, ⟨8, _⟩ => ⟨S96x2048x1, .f32⟩
  | .hbm, ⟨9, _⟩ => ⟨S96x2048x1, .f32⟩
  | .hbm, ⟨10, _⟩ => ⟨S96x2048x3, .f32⟩
  | .hbm, ⟨11, _⟩ => ⟨S32x6144x3, .f32⟩
  | .local _ .vmem, ⟨0, _⟩ => ⟨S8x300x256, .f32⟩
  | .local _ .vmem, ⟨1, _⟩ => ⟨S8x300x256, .f32⟩
  | .local _ .vmem, ⟨2, _⟩ => ⟨S8x300x256, .f32⟩
  | .local _ .vmem, ⟨3, _⟩ => ⟨S8x300x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | _, _ => ⟨S32x3x300x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x300x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x300x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S32x3x300x2048_S96x300x2048 : S32x3x300x2048.ShapeCasts S96x300x2048
  inb_S8x300x256_S8x300x256_0_0_0 : ∀ a, (![0, 0, 0] : Fin 3 → Nat) a + S8x300x256.size a ≤ S8x300x256.size a
  h_S8x300x256 : 0 < S8x300x256.numel
  shapeCasts_S8x300x256_S8x300x256 : S8x300x256.ShapeCasts S8x300x256
  reduces_S8x300x256_S8x256 : S8x300x256.Reduces [1] S8x256
  inb_S8x256_S8x256_0_0 : ∀ a, (![0, 0] : Fin 2 → Nat) a + S8x256.size a ≤ S8x256.size a
  h_S8x256 : 0 < S8x256.numel
  bcast_S96x2048_S96x2048x1_0_1 : S96x2048.BroadcastsInDim S96x2048x1 (![0, 1] : Fin 2 → Fin S96x2048x1.rank)
  concatenates_S96x2048x1_S96x2048x1_S96x2048x1_S96x2048x3_d2 : Shape.Concatenates [S96x2048x1, S96x2048x1, S96x2048x1] S96x2048x3 2
  shapeCasts_S96x2048x3_S32x6144x3 : S96x2048x3.ShapeCasts S32x6144x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x256.size a ≤ S96x300x2048.size a
  hwx0_0 : ∀ i : grid0.Coords, EltTy.bits .f32 = 32 ∨ (Rect.block (s := S96x300x2048) S8x300x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x300x256.size a ≤ S96x300x2048.size a
  hwx0_1 : ∀ i : grid0.Coords, EltTy.bits .f32 = 32 ∨ (Rect.block (s := S96x300x2048) S8x300x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S96x2048.size a
  hwx0_2 : ∀ i : grid0.Coords, EltTy.bits .f32 = 32 ∨ (Rect.block (s := S96x2048) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S96x2048.size a
  hwx0_3 : ∀ i : grid0.Coords, EltTy.bits .f32 = 32 ∨ (Rect.block (s := S96x2048) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S96x2048.size a
  hwx0_4 : ∀ i : grid0.Coords, EltTy.bits .f32 = 32 ∨ (Rect.block (s := S96x2048) S8x256.size (cc0_transform_4 i) (hinb0_4 i)).WholeWords (EltTy.packing .f32)

variable [Facts₀]

abbrev win0_0 : Pipeline.Window sig grid0 :=
  Pipeline.Window.ofSpec (Memref.whole main_v0) S8x300x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x300x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x300x2048 : Shape := ⟨4, ![32, 3, 300, 2048]⟩
abbrev S32x3x2048x300 : Shape := ⟨4, ![32, 3, 2048, 300]⟩
abbrev S_ : Shape := ⟨0, ![]⟩
abbrev S32x3x2048 : Shape := ⟨3, ![32, 3, 2048]⟩
abbrev S32x3x2048x1 : Shape := ⟨4, ![32, 3, 2048, 1]⟩
abbrev S32x3x2048x3 : Shape := ⟨4, ![32, 3, 2048, 3]⟩
abbrev S32x6144x3 : Shape := ⟨3, ![32, 6144, 3]⟩

abbrev nBuf : Space → Nat
  | .hbm => 30
  | .vmem => 0
  | .smem => 0
  | _ => 0

abbrev bufTy : (tb : Table) → Fin (tcTables nBuf tb) → BufTy
  | .hbm, ⟨0, _⟩ => ⟨S32x3x300x2048, .f32⟩
  | .hbm, ⟨1, _⟩ => ⟨S32x3x300x2048, .f32⟩
  | .hbm, ⟨2, _⟩ => ⟨S32x3x2048x300, .f32⟩
  | .hbm, ⟨3, _⟩ => ⟨S32x3x2048x300, .f32⟩
  | .hbm, ⟨4, _⟩ => ⟨S32x3x2048x300, .f32⟩
  | .hbm, ⟨5, _⟩ => ⟨S_, .f32⟩
  | .hbm, ⟨6, _⟩ => ⟨S32x3x2048, .f32⟩
  | .hbm, ⟨7, _⟩ => ⟨S32x3x2048x300, .f32⟩
  | .hbm, ⟨8, _⟩ => ⟨S_, .f32⟩
  | .hbm, ⟨9, _⟩ => ⟨S32x3x2048, .f32⟩
  | .hbm, ⟨10, _⟩ => ⟨S32x3x2048, .f32⟩
  | .hbm, ⟨11, _⟩ => ⟨S32x3x2048x300, .f32⟩
  | .hbm, ⟨12, _⟩ => ⟨S_, .f32⟩
  | .hbm, ⟨13, _⟩ => ⟨S32x3x2048, .f32⟩
  | .hbm, ⟨14, _⟩ => ⟨S32x3x2048, .f32⟩
  | .hbm, ⟨15, _⟩ => ⟨S32x3x2048, .f32⟩
  | .hbm, ⟨16, _⟩ => ⟨S32x3x2048, .f32⟩
  | .hbm, ⟨17, _⟩ => ⟨S32x3x2048x300, .f32⟩
  | .hbm, ⟨18, _⟩ => ⟨S32x3x2048x300, .f32⟩
  | .hbm, ⟨19, _⟩ => ⟨S_, .f32⟩
  | .hbm, ⟨20, _⟩ => ⟨S32x3x2048, .f32⟩
  | .hbm, ⟨21, _⟩ => ⟨S32x3x2048, .f32⟩
  | .hbm, ⟨22, _⟩ => ⟨S32x3x2048x300, .f32⟩
  | .hbm, ⟨23, _⟩ => ⟨S_, .f32⟩
  | .hbm, ⟨24, _⟩ => ⟨S32x3x2048, .f32⟩
  | .hbm, ⟨25, _⟩ => ⟨S32x3x2048x1, .f32⟩
  | .hbm, ⟨26, _⟩ => ⟨S32x3x2048x1, .f32⟩
  | .hbm, ⟨27, _⟩ => ⟨S32x3x2048x1, .f32⟩
  | .hbm, ⟨28, _⟩ => ⟨S32x3x2048x3, .f32⟩
  | .hbm, ⟨29, _⟩ => ⟨S32x6144x3, .f32⟩
  | _, _ => ⟨S32x3x300x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  transposes_S32x3x300x2048_S32x3x2048x300_0_1_3_2 : S32x3x300x2048.Transposes [0, 1, 3, 2] S32x3x2048x300
  reducesTo_S32x3x2048x300_S32x3x2048_d3 : S32x3x2048x300.ReducesTo [3] S32x3x2048
  h_S_ : 0 < S_.numel
  bcast_S32x3x2048_S32x3x2048x1_0_1_2 : S32x3x2048.BroadcastsInDim S32x3x2048x1 (![0, 1, 2] : Fin 3 → Fin S32x3x2048x1.rank)
  concatenates_S32x3x2048x1_S32x3x2048x1_S32x3x2048x1_S32x3x2048x3_d3 : Shape.Concatenates [S32x3x2048x1, S32x3x2048x1, S32x3x2048x1] S32x3x2048x3 3
  shapeCasts_S32x3x2048x3_S32x6144x3 : S32x3x2048x3.ShapeCasts S32x6144x3

variable [Facts₀]

class Facts : Prop extends Facts₀ where

variable [Facts]
-- ==== Proof.FrameKernel.lean ====
/-
  The frame of `Kernel`: every weakly fair execution of @main terminates, faults nowhere and leaves the two argument
  arrays as launched.  @main is two reshapes (the arguments viewed as 96 × 300 × 2048), one region on a 12 × 8 grid,
  and five host lines after it (three broadcasts into a trailing unit axis, their concatenation along that axis and a
  final reshape).  At grid point `t` the body reads the two staged 8 × 300 × 256 blocks whole and overwrites each of its three
  8 × 256 output buffers whole with one value computed from the two blocks; the old contents it loads from the output
  buffers are never used.  So each output buffer ends the point at the canon of one covering store, the two input
  buffers are left as found, and the launch theorem for a region followed by host lines gives the run: every window's
  array at what the write-backs leave, every other buffer at what the later lines compute from the region's exit.
  The arguments are no window's array and no host line writes them, so they end as launched.
  The statements are generic in the float family, so the same text serves the word-level program and the idealized one.
-/
import proofs.«178509_j55851754717413_1_alg».proof.Proof.Gen.Kernel.Launch
import proofs.«178509_j55851754717413_1_alg».proof.Proof.Gen.Kernel.Skeleton
import proofs.«178509_j55851754717413_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, then the five later lines: it reduces to the region continued by those lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No later line writes an argument either, and no window stages one: after the later lines each holds what it held at launch. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window is fetched at every point, so its current staging buffer holds its block there, for any proof data
    over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The arguments bypass the region and the later lines leave them alone, so a run to the launch theorem's post is a run
    to the frame claim's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## What the body leaves in each output buffer -/

/-- The whole 8 × 300 × 256 block, and the whole 8 × 256 block, as rectangles. -/
abbrev rIn : Rect S8x300x256 := Rect.unit (s := S8x300x256) ![0, 0, 0] S8x300x256.size inb_S8x300x256_S8x300x256_0_0_0
abbrev rOut : Rect S8x256 := Rect.unit (s := S8x256) ![0, 0] S8x256.size inb_S8x256_S8x256_0_0

/-- The three output buffers after the body, from the two input blocks: each the canon of its one whole store
    (the quotient, the root of the summed squared differences, the summed absolute differences). -/
def out0_2 (x0 x1 : Vec F S8x300x256 .f32) : Vec F S8x256 .f32 :=
  View.canon [⟨rOut, k0_pay5 (View.ld x0 rIn) (View.ld x1 rIn)⟩]
def out0_3 (x0 x1 : Vec F S8x300x256 .f32) : Vec F S8x256 .f32 :=
  View.canon [⟨rOut, k0_pay6 (View.ld x0 rIn) (View.ld x1 rIn)⟩]
def out0_4 (x0 x1 : Vec F S8x300x256 .f32) : Vec F S8x256 .f32 :=
  View.canon [⟨rOut, k0_pay4 (View.ld x0 rIn) (View.ld x1 rIn)⟩]

/-- One whole store covers the buffer. -/
theorem coverOut (p0 : Vec F S8x256 .f32) (y : S8x256.Idx) :
    ∃ pc ∈ ([⟨rOut, p0⟩] : List (View.Piece (Elt F) S8x256 .f32)), y ∈ pc.1.set :=
  View.cover_of_tiled [⟨rOut, p0⟩] S8x256.size (by rfl) y

/-! ## The body's triple -/

set_option maxHeartbeats 1000000 in
/-- The body on whole staging memrefs, the inputs' at contents `x0`, `x1` and the outputs' at anything, runs to a state with the
    inputs' as they were and each output's at its one store's canon. -/
theorem sound_kernel (c : Dev nD) (E : Set ℕ) (i : grid0.Coords) (arg2 : Memref sig .tc .vmem S8x300x256 .f32) (harg2 : arg2.IsWhole) (arg3 : Memref sig .tc .vmem S8x300x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole)
    (x0 : Vec F S8x300x256 .f32) (x1 : Vec F S8x300x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverOut _)
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The pipeline's proof data -/

/-- On core `c`: the arrays as the region finds them; after the body at point `t` each input buffer at its block and each
    output buffer at its store's canon over the two input blocks; the invariant the untouched scoped rest; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in every final state each window's array holds what the write-backs
    leave, and every other unscoped buffer what the later lines compute from the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.FrameKernelIdeal.lean ====
/-
  The frame of `KernelIdeal`: every weakly fair execution of @main terminates, faults nowhere and leaves the two argument
  arrays as launched.  @main is two reshapes (the arguments viewed as 96 × 300 × 2048), one region on a 12 × 8 grid,
  and five host lines after it (three broadcasts into a trailing unit axis, their concatenation along that axis and a
  final reshape).  At grid point `t` the body reads the two staged 8 × 300 × 256 blocks whole and overwrites each of its three
  8 × 256 output buffers whole with one value computed from the two blocks; the old contents it loads from the output
  buffers are never used.  So each output buffer ends the point at the canon of one covering store, the two input
  buffers are left as found, and the launch theorem for a region followed by host lines gives the run: every window's
  array at what the write-backs leave, every other buffer at what the later lines compute from the region's exit.
  The arguments are no window's array and no host line writes them, so they end as launched.
  The statements are generic in the float family, so the same text serves the word-level program and the idealized one.
-/
import proofs.«178509_j55851754717413_1_alg».proof.Proof.Gen.KernelIdeal.Launch
import proofs.«178509_j55851754717413_1_alg».proof.Proof.Gen.KernelIdeal.Skeleton
import proofs.«178509_j55851754717413_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, then the five later lines: it reduces to the region continued by those lines,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- Neither reshape writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No later line writes an argument either, and no window stages one: after the later lines each holds what it held at launch. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window is fetched at every point, so its current staging buffer holds its block there, for any proof data
    over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The arguments bypass the region and the later lines leave them alone, so a run to the launch theorem's post is a run
    to the frame claim's. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## What the body leaves in each output buffer -/

/-- The whole 8 × 300 × 256 block, and the whole 8 × 256 block, as rectangles. -/
abbrev rIn : Rect S8x300x256 := Rect.unit (s := S8x300x256) ![0, 0, 0] S8x300x256.size inb_S8x300x256_S8x300x256_0_0_0
abbrev rOut : Rect S8x256 := Rect.unit (s := S8x256) ![0, 0] S8x256.size inb_S8x256_S8x256_0_0

/-- The three output buffers after the body, from the two input blocks: each the canon of its one whole store
    (the quotient, the root of the summed squared differences, the summed absolute differences). -/
def out0_2 (x0 x1 : Vec F S8x300x256 .f32) : Vec F S8x256 .f32 :=
  View.canon [⟨rOut, k0_pay5 (View.ld x0 rIn) (View.ld x1 rIn)⟩]
def out0_3 (x0 x1 : Vec F S8x300x256 .f32) : Vec F S8x256 .f32 :=
  View.canon [⟨rOut, k0_pay6 (View.ld x0 rIn) (View.ld x1 rIn)⟩]
def out0_4 (x0 x1 : Vec F S8x300x256 .f32) : Vec F S8x256 .f32 :=
  View.canon [⟨rOut, k0_pay4 (View.ld x0 rIn) (View.ld x1 rIn)⟩]

/-- One whole store covers the buffer. -/
theorem coverOut (p0 : Vec F S8x256 .f32) (y : S8x256.Idx) :
    ∃ pc ∈ ([⟨rOut, p0⟩] : List (View.Piece (Elt F) S8x256 .f32)), y ∈ pc.1.set :=
  View.cover_of_tiled [⟨rOut, p0⟩] S8x256.size (by rfl) y

/-! ## The body's triple -/

set_option maxHeartbeats 1000000 in
/-- The body on whole staging memrefs, the inputs' at contents `x0`, `x1` and the outputs' at anything, runs to a state with the
    inputs' as they were and each output's at its one store's canon. -/
theorem sound_kernel (c : Dev nD) (E : Set ℕ) (i : grid0.Coords) (arg2 : Memref sig .tc .vmem S8x300x256 .f32) (harg2 : arg2.IsWhole) (arg3 : Memref sig .tc .vmem S8x300x256 .f32) (harg3 : arg3.IsWhole) (arg4 : Memref sig .tc .vmem S8x256 .f32) (harg4 : arg4.IsWhole) (arg5 : Memref sig .tc .vmem S8x256 .f32) (harg5 : arg5.IsWhole) (arg6 : Memref sig .tc .vmem S8x256 .f32) (harg6 : arg6.IsWhole)
    (x0 : Vec F S8x300x256 .f32) (x1 : Vec F S8x300x256 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__sim_kernel i arg2 harg2 arg3 harg3 arg4 harg4 arg5 harg5 arg6 harg6) K := by
  simp only [cc0__sim_kernel_eq_skeleton]; unfold cc0__sim_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverOut _)
  isplitl [H3]
  · iexists _; isplitr
    swap; · iexact H3
    ipureintro
    exact View.read_writes_eq_canon _ _ _ (coverOut _)
  iexists _; isplitr
  swap; · iexact H4
  ipureintro
  exact View.read_writes_eq_canon _ _ _ (coverOut _)

/-! ## The pipeline's proof data -/

/-- On core `c`: the arrays as the region finds them; after the body at point `t` each input buffer at its block and each
    output buffer at its store's canon over the two input blocks; the invariant the untouched scoped rest; full shares,
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At any point the input buffers hold their blocks, so the body's triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in every final state each window's array holds what the write-backs
    leave, and every other unscoped buffer what the later lines compute from the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.Spec.lean ====
/-
  The three distances between two length-300 columns, and the array both programs compute.

  For two columns u, v : Fin 300 → EReal, over the extended reals:
    cosine u v    = (Σ_d u d · v d) / (√(Σ_d u d · u d) · √(Σ_d v d · v d)),
    euclid u v    = √(Σ_d (u d − v d) · (u d − v d)),
    manhattan u v = Σ_d max (u d − v d) (−(u d − v d)).
  The inputs are two arrays x, y of shape 32 × 3 × 300 × 2048; at (b, p, n) the columns are d ↦ x (b, p, d, n) and
  d ↦ y (b, p, d, n).  The result has shape 32 × 6144 × 3: at (b, j, k) it is measure number k of the columns at
  (b, j / 2048, j % 2048).  Nothing here needs the inputs finite: both programs spell each measure with the same operations in
  the same order, and they differ only in where the length-300 axis sits and in how the result is laid out.
-/
import Idealize.ShloMosaic.PureOps.Ideal
import Idealize.ShloMosaic.Lib.ValueIdx

noncomputable section

open scoped BigOperators

namespace Cert.Sim

open Idealize.ShloMosaic Idealize.ShloMosaic.ValueIdx

/-- The inner product of two columns. -/
def dot (u v : Fin 300 → EReal) : EReal := ∑ d : Fin 300, u d * v d

/-- The cosine of the angle between two columns (the quotient is the extended reals' at the ideal instance). -/
def cosine (u v : Fin 300 → EReal) : EReal := Ideal.div (dot u v) (Ideal.sqrt (dot u u) * Ideal.sqrt (dot v v))

/-- Their Euclidean distance. -/
def euclid (u v : Fin 300 → EReal) : EReal := Ideal.sqrt (∑ d : Fin 300, (u d - v d) * (u d - v d))

/-- Their L1 distance. -/
def manhattan (u v : Fin 300 → EReal) : EReal := ∑ d : Fin 300, max (u d - v d) (-(u d - v d))

/-- Measure number `k`: 0 the cosine, 1 the Euclidean distance, 2 the L1 distance. -/
def measure (k : Fin 3) (u v : Fin 300 → EReal) : EReal :=
  match k with
  | ⟨0, _⟩ => cosine u v
  | ⟨1, _⟩ => euclid u v
  | ⟨2, _⟩ => manhattan u v

/-- The column of a 32 × 3 × 300 × 2048 array at (b, p, n). -/
def col (x : (⟨4, ![32, 3, 300, 2048]⟩ : Shape).Idx → EReal) (b : Fin 32) (p : Fin 3) (n : Fin 2048) : Fin 300 → EReal :=
  fun d => x (ix4 b p d n)

/-- The column of a 96 × 300 × 2048 array at (r, n). -/
def rowcol (X : (⟨3, ![96, 300, 2048]⟩ : Shape).Idx → EReal) (r : Fin 96) (n : Fin 2048) : Fin 300 → EReal :=
  fun d => X (ix3 r d n)

/-- Measure `k` of two 96 × 300 × 2048 arrays, column by column: a 96 × 2048 array. -/
def arrOf (k : Fin 3) (X Y : (⟨3, ![96, 300, 2048]⟩ : Shape).Idx → EReal) : (⟨2, ![96, 2048]⟩ : Shape).Idx → EReal := fun j =>
  measure k (rowcol X ⟨(j 0).val, (j 0).isLt⟩ ⟨(j 1).val, (j 1).isLt⟩) (rowcol Y ⟨(j 0).val, (j 0).isLt⟩ ⟨(j 1).val, (j 1).isLt⟩)

/-- One of three values, by number. -/
def pick3 {α : Type} (k : Fin 3) (a0 a1 a2 : α) : α :=
  match k with
  | ⟨0, _⟩ => a0
  | ⟨1, _⟩ => a1
  | ⟨2, _⟩ => a2

/-- The result: at (b, j, k), measure `k` of the two arrays' columns at (b, j / 2048, j % 2048). -/
def result (x y : (⟨4, ![32, 3, 300, 2048]⟩ : Shape).Idx → EReal) : (⟨3, ![32, 6144, 3]⟩ : Shape).Idx → EReal := fun i =>
  measure ⟨(i 2).val, (i 2).isLt⟩
    (col x ⟨(i 0).val, (i 0).isLt⟩ ⟨(i 1).val / 2048, by have := (i 1).isLt; change _ < 6144 at this; omega⟩ ⟨(i 1).val % 2048, Nat.mod_lt _ (by decide)⟩)
    (col y ⟨(i 0).val, (i 0).isLt⟩ ⟨(i 1).val / 2048, by have := (i 1).isLt; change _ < 6144 at this; omega⟩ ⟨(i 1).val % 2048, Nat.mod_lt _ (by decide)⟩)

end Cert.Sim

end
-- ==== Proof.KernelPoint.lean ====
import proofs.«178509_j55851754717413_1_alg».proof.Proof.FrameKernelIdeal
import proofs.«178509_j55851754717413_1_alg».proof.Proof.Spec
import Idealize.ShloMosaic.PureOps.Ideal.Laws
import Idealize.ShloMosaic.Lib.Pipeline.Value

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.KernelIdeal.Fr

/-- The three-coordinate zero offset is the constant zero. -/
theorem hz3 : (![0, 0, 0] : Fin 3 → Nat) = fun _ => 0 := funext fun a => by fin_cases a <;> rfl

/-- The two-coordinate zero offset is the constant zero. -/
theorem hz2 : (![0, 0] : Fin 2 → Nat) = fun _ => 0 := funext fun a => by fin_cases a <;> rfl

/-- A sum over the middle axis of an 8 × 300 × 256 block, read at (p, q): the plain sum over d of the block at (p, d, q). -/
theorem red_apply (v : FVec Ideal S8x300x256 .f32) (p : Fin 8) (q : Fin 256) :
    multiReduction .add [1] S8x256 v 0x00000000#32 reduces_S8x300x256_S8x256 (.inl rfl) rfl (ix2 p q)
      = ∑ d : Fin 300, v (ix3 p d q) := by
  refine (Ideal.multiReduction_add_single v _ reduces_S8x300x256_S8x256 (.inl rfl) rfl (ix2 p q)).trans ?_
  refine Finset.sum_congr rfl fun d _ => congrArg v ?_
  funext a
  match a with
  | ⟨0, _⟩ => rfl
  | ⟨1, _⟩ => rfl
  | ⟨2, _⟩ => rfl

/-- The kernel's first operand after its identity reshape is the block itself. -/
theorem pay1_eq (v0 : Vec Ideal S8x300x256 .f32) : k0_pay1 (F := Ideal) v0 = v0 := by
  unfold k0_pay1
  exact shapeCast_self v0 _

/-- The kernel's second operand after its identity reshape is the block itself. -/
theorem pay2_eq (v2 : Vec Ideal S8x300x256 .f32) : k0_pay2 (F := Ideal) v2 = v2 := by
  unfold k0_pay2
  exact shapeCast_self v2 _

/-- The difference of the two blocks, read at an index. -/
theorem pay3_apply (v0 v2 : Vec Ideal S8x300x256 .f32) (i : S8x300x256.Idx) :
    k0_pay3 (F := Ideal) v0 v2 i = v0 i - v2 i := by
  unfold k0_pay3
  rw [pay1_eq, pay2_eq]
  rfl

theorem out2_apply (x0 x1 : Vec Ideal S8x300x256 .f32) (p : Fin 8) (q : Fin 256) :
    out0_2 (F := Ideal) x0 x1 (ix2 p q) = Cert.Sim.cosine (fun d => x0 (ix3 p d q)) (fun d => x1 (ix3 p d q)) := by
  unfold out0_2
  rw [View.canon_unit_zero hz2]
  simp only [View.ld_unit_zero (S := S8x300x256) hz3]
  unfold k0_pay5
  rw [pay1_eq, pay2_eq]
  unfold Cert.Sim.cosine Cert.Sim.dot
  show Ideal.div (multiReduction .add [1] S8x256 (mulf x0 x1 : FVec Ideal S8x300x256 .f32) 0x00000000#32 reduces_S8x300x256_S8x256 (.inl rfl) rfl (ix2 p q))
      (Ideal.sqrt (multiReduction .add [1] S8x256 (mulf x0 x0 : FVec Ideal S8x300x256 .f32) 0x00000000#32 reduces_S8x300x256_S8x256 (.inl rfl) rfl (ix2 p q))
        * Ideal.sqrt (multiReduction .add [1] S8x256 (mulf x1 x1 : FVec Ideal S8x300x256 .f32) 0x00000000#32 reduces_S8x300x256_S8x256 (.inl rfl) rfl (ix2 p q))) = _
  rw [red_apply, red_apply, red_apply]
  rfl

theorem out3_apply (x0 x1 : Vec Ideal S8x300x256 .f32) (p : Fin 8) (q : Fin 256) :
    out0_3 (F := Ideal) x0 x1 (ix2 p q) = Cert.Sim.euclid (fun d => x0 (ix3 p d q)) (fun d => x1 (ix3 p d q)) := by
  unfold out0_3
  rw [View.canon_unit_zero hz2]
  simp only [View.ld_unit_zero (S := S8x300x256) hz3]
  unfold k0_pay6
  unfold Cert.Sim.euclid
  show Ideal.sqrt (multiReduction .add [1] S8x256 (mulf (k0_pay3 x0 x1) (k0_pay3 x0 x1) : FVec Ideal S8x300x256 .f32) 0x00000000#32 reduces_S8x300x256_S8x256 (.inl rfl) rfl (ix2 p q)) = _
  rw [red_apply]
  refine congrArg Ideal.sqrt (Finset.sum_congr rfl fun d _ => ?_)
  show k0_pay3 x0 x1 (ix3 p d q) * k0_pay3 x0 x1 (ix3 p d q) = _
  rw [pay3_apply]

theorem out4_apply (x0 x1 : Vec Ideal S8x300x256 .f32) (p : Fin 8) (q : Fin 256) :
    out0_4 (F := Ideal) x0 x1 (ix2 p q) = Cert.Sim.manhattan (fun d => x0 (ix3 p d q)) (fun d => x1 (ix3 p d q)) := by
  unfold out0_4
  rw [View.canon_unit_zero hz2]
  simp only [View.ld_unit_zero (S := S8x300x256) hz3]
  unfold k0_pay4
  unfold Cert.Sim.manhattan
  show multiReduction .add [1] S8x256 (absf (k0_pay3 x0 x1) : FVec Ideal S8x300x256 .f32) 0x00000000#32 reduces_S8x300x256_S8x256 (.inl rfl) rfl (ix2 p q) = _
  rw [red_apply]
  refine Finset.sum_congr rfl fun d _ => ?_
  show max (k0_pay3 x0 x1 (ix3 p d q)) (-(k0_pay3 x0 x1 (ix3 p d q))) = _
  rw [pay3_apply]

end Cert.KernelIdeal.Val

end
-- ==== Proof.KernelArrays.lean ====
import proofs.«178509_j55851754717413_1_alg».proof.Proof.FrameKernelIdeal
import proofs.«178509_j55851754717413_1_alg».proof.Proof.KernelPoint
import proofs.«178509_j55851754717413_1_alg».proof.Proof.Spec
import Idealize.ShloMosaic.Lib.Pipeline.Value
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.KernelIdeal.Fr Idealize.ShloMosaic.StableHlo
open Idealize.ShloMosaic.Pipeline (Dat)

variable (m : (ℓ : Loc nD τ sig) → Buf (Elt Ideal) ℓ)

/-! ## The two reshaped arguments, as the region finds them

The region's two input arrays are the arguments viewed as 96 × 300 × 2048: row `r` of the view is the pair
(r / 3, r % 3) of the leading two axes. -/

theorem X_eq (c : Dev nD) : (V m c main_v0 : S96x300x2048.Idx → EReal)
    = shapeCast S96x300x2048 (m ((c : Thread nD τ).loc main_arg0)) shapeCasts_S32x3x300x2048_S96x300x2048 := by
  show StableHlo.after hostOps0 (fun b => m (c, b)) (Proc.devRef .tc main_v0) = _
  after_results
  rfl

theorem Y_eq (c : Dev nD) : (V m c main_v1 : S96x300x2048.Idx → EReal)
    = shapeCast S96x300x2048 (m ((c : Thread nD τ).loc main_arg1)) shapeCasts_S32x3x300x2048_S96x300x2048 := by
  show StableHlo.after hostOps0 (fun b => m (c, b)) (Proc.devRef .tc main_v1) = _
  after_results
  rfl

/-- The row-major position of (r, d, n) in 96 × 300 × 2048 is that of (r / 3, r % 3, d, n) in 32 × 3 × 300 × 2048. -/
theorem pos_eq (r : Fin 96) (d : Fin 300) (n : Fin 2048) :
    (S32x3x300x2048.rowMajor (ix4 (⟨r.val / 3, by omega⟩ : Fin 32) (⟨r.val % 3, by omega⟩ : Fin 3) d n)).val
      = (S96x300x2048.rowMajor (ix3 r d n)).val := by
  rw [Shape.rowMajor_val_four, Shape.rowMajor_val_three]
  show ((r.val / 3 * 3 + r.val % 3) * 300 + d.val) * 2048 + n.val = (r.val * 300 + d.val) * 2048 + n.val
  have := Nat.div_add_mod r.val 3
  have e : r.val / 3 * 3 + r.val % 3 = r.val := by omega
  rw [e]

theorem X_apply (c : Dev nD) (r : Fin 96) (d : Fin 300) (n : Fin 2048) :
    (V m c main_v0 : S96x300x2048.Idx → EReal) (ix3 r d n) = m ((c : Thread nD τ).loc main_arg0) (ix4 (⟨r.val / 3, by omega⟩ : Fin 32) (⟨r.val % 3, by omega⟩ : Fin 3) d n) := by
  rw [X_eq]
  exact shapeCast_apply _ _ (ix3 r d n) _ (pos_eq r d n)

theorem Y_apply (c : Dev nD) (r : Fin 96) (d : Fin 300) (n : Fin 2048) :
    (V m c main_v1 : S96x300x2048.Idx → EReal) (ix3 r d n) = m ((c : Thread nD τ).loc main_arg1) (ix4 (⟨r.val / 3, by omega⟩ : Fin 32) (⟨r.val % 3, by omega⟩ : Fin 3) d n) := by
  rw [Y_eq]
  exact shapeCast_apply _ _ (ix3 r d n) _ (pos_eq r d n)

/-! ## From the blocks to the arrays

Grid point `t` = (i, j) of the 12 × 8 grid stages rows 8i … 8i+7, all 300 entries of the middle axis and lanes
256j … 256j+255 of both inputs, and writes back rows 8i … 8i+7, lanes 256j … 256j+255 of each output.  So what it writes back
is that block of ONE whole-array function (measure by measure, column by column), and the 96 blocks tile the 96 × 2048 array. -/

/-- The printed index maps over the grid: the inputs' blocks move with the outputs' on the row and lane axes and stay
    at 0 on the middle axis; the three outputs share one map; the block indices stay in range. -/
theorem idx_facts : ∀ t : Fin cfg0.N,
    win0_0.index t (0 : Fin 3) = win0_2.index t (0 : Fin 2) ∧ win0_0.index t (1 : Fin 3) = 0 ∧ win0_0.index t (2 : Fin 3) = win0_2.index t (1 : Fin 2)
    ∧ win0_1.index t (0 : Fin 3) = win0_2.index t (0 : Fin 2) ∧ win0_1.index t (1 : Fin 3) = 0 ∧ win0_1.index t (2 : Fin 3) = win0_2.index t (1 : Fin 2)
    ∧ win0_3.index t (0 : Fin 2) = win0_2.index t (0 : Fin 2) ∧ win0_3.index t (1 : Fin 2) = win0_2.index t (1 : Fin 2)
    ∧ win0_4.index t (0 : Fin 2) = win0_2.index t (0 : Fin 2) ∧ win0_4.index t (1 : Fin 2) = win0_2.index t (1 : Fin 2)
    ∧ win0_2.index t (0 : Fin 2) ≤ 11 ∧ win0_2.index t (1 : Fin 2) ≤ 7 :=
  (by decide +kernel : ∀ t : Fin grid0.N, _)

/-- Every block of the 12 × 8 tiling is some point's. -/
theorem idx_onto : ∀ (q0 : Fin 12) (q1 : Fin 8), ∃ t : Fin cfg0.N, win0_2.index t = ![q0.val, q1.val] :=
  (by decide +kernel : ∀ (q0 : Fin 12) (q1 : Fin 8), ∃ t : Fin grid0.N, win0_2.index t = ![q0.val, q1.val])

/-- Input block 0 at (p, d, q) is the array's column entry at the row and lane the output block's (p, q) sits at. -/
theorem xblk_apply (c : Dev nD) (t : Fin cfg0.N) (p : Fin 8) (q : Fin 256) (d : Fin 300)
    (j' : S96x2048.Idx) (h0 : (j' 0).val = win0_2.index t (0 : Fin 2) * 8 + p.val) (h1 : (j' 1).val = win0_2.index t (1 : Fin 2) * 256 + q.val) :
    (iblk m c 0 t : S8x300x256.Idx → EReal) (ix3 p d q) = Cert.Sim.rowcol (V m c main_v0) ⟨(j' 0).val, (j' 0).isLt⟩ ⟨(j' 1).val, (j' 1).isLt⟩ d := by
  obtain ⟨e0, e1, e2, -⟩ := idx_facts t
  show (V m c main_v0 : S96x300x2048.Idx → EReal) (((cfg0.win 0).blk t).view.emb (ix3 p d q)) = (V m c main_v0 : S96x300x2048.Idx → EReal) (ix3 _ d _)
  refine congrArg _ (funext fun a => Fin.ext ?_)
  match a with
  | ⟨0, _⟩ => show win0_0.index t (0 : Fin 3) * 8 + 1 * p.val = (j' 0).val; omega
  | ⟨1, _⟩ => show win0_0.index t (1 : Fin 3) * 300 + 1 * d.val = d.val; omega
  | ⟨2, _⟩ => show win0_0.index t (2 : Fin 3) * 256 + 1 * q.val = (j' 1).val; omega

theorem yblk_apply (c : Dev nD) (t : Fin cfg0.N) (p : Fin 8) (q : Fin 256) (d : Fin 300)
    (j' : S96x2048.Idx) (h0 : (j' 0).val = win0_2.index t (0 : Fin 2) * 8 + p.val) (h1 : (j' 1).val = win0_2.index t (1 : Fin 2) * 256 + q.val) :
    (iblk m c 1 t : S8x300x256.Idx → EReal) (ix3 p d q) = Cert.Sim.rowcol (V m c main_v1) ⟨(j' 0).val, (j' 0).isLt⟩ ⟨(j' 1).val, (j' 1).isLt⟩ d := by
  obtain ⟨-, -, -, e0, e1, e2, -⟩ := idx_facts t
  show (V m c main_v1 : S96x300x2048.Idx → EReal) (((cfg0.win 1).blk t).view.emb (ix3 p d q)) = (V m c main_v1 : S96x300x2048.Idx → EReal) (ix3 _ d _)
  refine congrArg _ (funext fun a => Fin.ext ?_)
  match a with
  | ⟨0, _⟩ => show win0_1.index t (0 : Fin 3) * 8 + 1 * p.val = (j' 0).val; omega
  | ⟨1, _⟩ => show win0_1.index t (1 : Fin 3) * 300 + 1 * d.val = d.val; omega
  | ⟨2, _⟩ => show win0_1.index t (2 : Fin 3) * 256 + 1 * q.val = (j' 1).val; omega

/-- What point `t` writes back through output window 2 is block `t` of the cosines of the two arrays' columns. -/
theorem flushed2_eq (c : Dev nD) (t : Fin cfg0.N) :
    (dats m 0 c).flushed 2 t = ((cfg0.win 2).blk t).view.read (Elt Ideal) (Cert.Sim.arrOf 0 (V m c main_v0) (V m c main_v1)) := by
  show (cfg0.win 2).cut (grid0.coords t) ((dats m 0 c).after 2 t) = _
  rw [after0_2]
  funext j
  obtain ⟨p, q, rfl⟩ : ∃ (p : Fin 8) (q : Fin 256), j = ix2 p q := ⟨j 0, j 1, eq_ix2 j⟩
  show out0_2 (F := Ideal) (iblk m c 0 t) (iblk m c 1 t) (ix2 p q) = Cert.Sim.arrOf 0 (V m c main_v0) (V m c main_v1) (((cfg0.win 2).blk t).view.emb (ix2 p q))
  refine (out2_apply (iblk m c 0 t) (iblk m c 1 t) p q).trans ?_
  have h0 : ((((cfg0.win 2).blk t).view.emb (ix2 p q) : S96x2048.Idx) 0).val = win0_2.index t (0 : Fin 2) * 8 + p.val := by
    show win0_2.index t (0 : Fin 2) * 8 + 1 * p.val = _; omega
  have h1 : ((((cfg0.win 2).blk t).view.emb (ix2 p q) : S96x2048.Idx) 1).val = win0_2.index t (1 : Fin 2) * 256 + q.val := by
    show win0_2.index t (1 : Fin 2) * 256 + 1 * q.val = _; omega
  show Cert.Sim.cosine _ _ = Cert.Sim.cosine _ _
  exact congrArg₂ Cert.Sim.cosine (funext fun d => xblk_apply m c t p q d _ h0 h1) (funext fun d => yblk_apply m c t p q d _ h0 h1)

/-- An index of a 96 × 2048 output array is in point `t`'s block iff each coordinate is in the block's range. -/
theorem mem_blk2 (t : Fin cfg0.N) (i : S96x2048.Idx) :
    i ∈ ((cfg0.win 2).blk t).view.set ↔ ∀ a : Fin 2, win0_2.index t a * S8x256.size a ≤ (i a).val ∧ (i a).val < win0_2.index t a * S8x256.size a + S8x256.size a := by
  show i ∈ ((View.whole main_v2_0).slice (win0_2.rect t)).set ↔ _
  rw [View.set_slice_whole, Rect.mem_set_unit]
  exact Iff.rfl

/-- The 96 blocks cover the array: row r, lane n is in the block of the point at (r / 8, n / 256). -/
theorem cover2 (i : S96x2048.Idx) : ∃ t : Fin cfg0.N, (cfg0.win 2).flush t = true ∧ i ∈ ((cfg0.win 2).blk t).view.set := by
  have hi0 : (i 0).val < 96 := (i 0).isLt
  have hi1 : (i 1).val < 2048 := (i 1).isLt
  obtain ⟨t, ht⟩ := idx_onto ⟨(i 0).val / 8, by omega⟩ ⟨(i 1).val / 256, by omega⟩
  have q0 : win0_2.index t (0 : Fin 2) = (i 0).val / 8 := congrFun ht 0
  have q1 : win0_2.index t (1 : Fin 2) = (i 1).val / 256 := congrFun ht 1
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 256 ≤ (i 1).val ∧ (i 1).val < win0_2.index t (1 : Fin 2) * 256 + 256; omega

/-- So the array ends holding the cosines, column by column. -/
theorem final2 (c : Dev nD) : (dats m 0 c).arrAt 2 cfg0.N = Cert.Sim.arrOf 0 (V m c main_v0) (V m c main_v1) :=
  (dats m 0 c).arrAt_eq_of_cover 2 (Cert.Sim.arrOf 0 (V m c main_v0) (V m c main_v1)) (fun t _ => flushed2_eq m c t) cover2

/-- What point `t` writes back through output window 3 is block `t` of the Euclidean distances of the two arrays' columns. -/
theorem flushed3_eq (c : Dev nD) (t : Fin cfg0.N) :
    (dats m 0 c).flushed 3 t = ((cfg0.win 3).blk t).view.read (Elt Ideal) (Cert.Sim.arrOf 1 (V m c main_v0) (V m c main_v1)) := by
  show (cfg0.win 3).cut (grid0.coords t) ((dats m 0 c).after 3 t) = _
  rw [after0_3]
  funext j
  obtain ⟨p, q, rfl⟩ : ∃ (p : Fin 8) (q : Fin 256), j = ix2 p q := ⟨j 0, j 1, eq_ix2 j⟩
  show out0_3 (F := Ideal) (iblk m c 0 t) (iblk m c 1 t) (ix2 p q) = Cert.Sim.arrOf 1 (V m c main_v0) (V m c main_v1) (((cfg0.win 3).blk t).view.emb (ix2 p q))
  refine (out3_apply (iblk m c 0 t) (iblk m c 1 t) p q).trans ?_
  obtain ⟨-, -, -, -, -, -, e30, e31, e40, e41, -⟩ := idx_facts t
  have h0 : ((((cfg0.win 3).blk t).view.emb (ix2 p q) : S96x2048.Idx) 0).val = win0_2.index t (0 : Fin 2) * 8 + p.val := by
    show win0_3.index t (0 : Fin 2) * 8 + 1 * p.val = _; omega
  have h1 : ((((cfg0.win 3).blk t).view.emb (ix2 p q) : S96x2048.Idx) 1).val = win0_2.index t (1 : Fin 2) * 256 + q.val := by
    show win0_3.index t (1 : Fin 2) * 256 + 1 * q.val = _; omega
  show Cert.Sim.euclid _ _ = Cert.Sim.euclid _ _
  exact congrArg₂ Cert.Sim.euclid (funext fun d => xblk_apply m c t p q d _ h0 h1) (funext fun d => yblk_apply m c t p q d _ h0 h1)

theorem mem_blk3 (t : Fin cfg0.N) (i : S96x2048.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v2_1).slice (win0_3.rect t)).set ↔ _
  rw [View.set_slice_whole, Rect.mem_set_unit]
  exact Iff.rfl

theorem cover3 (i : S96x2048.Idx) : ∃ t : Fin cfg0.N, (cfg0.win 3).flush t = true ∧ i ∈ ((cfg0.win 3).blk t).view.set := by
  have hi0 : (i 0).val < 96 := (i 0).isLt
  have hi1 : (i 1).val < 2048 := (i 1).isLt
  obtain ⟨t, ht⟩ := idx_onto ⟨(i 0).val / 8, by omega⟩ ⟨(i 1).val / 256, by omega⟩
  have q0 : win0_2.index t (0 : Fin 2) = (i 0).val / 8 := congrFun ht 0
  have q1 : win0_2.index t (1 : Fin 2) = (i 1).val / 256 := congrFun ht 1
  obtain ⟨-, -, -, -, -, -, e30, e31, e40, e41, -⟩ := idx_facts t
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

/-- So the array ends holding the Euclidean distances, column by column. -/
theorem final3 (c : Dev nD) : (dats m 0 c).arrAt 3 cfg0.N = Cert.Sim.arrOf 1 (V m c main_v0) (V m c main_v1) :=
  (dats m 0 c).arrAt_eq_of_cover 3 (Cert.Sim.arrOf 1 (V m c main_v0) (V m c main_v1)) (fun t _ => flushed3_eq m c t) cover3

/-- What point `t` writes back through output window 4 is block `t` of the L1 distances of the two arrays' columns. -/
theorem flushed4_eq (c : Dev nD) (t : Fin cfg0.N) :
    (dats m 0 c).flushed 4 t = ((cfg0.win 4).blk t).view.read (Elt Ideal) (Cert.Sim.arrOf 2 (V m c main_v0) (V m c main_v1)) := by
  show (cfg0.win 4).cut (grid0.coords t) ((dats m 0 c).after 4 t) = _
  rw [after0_4]
  funext j
  obtain ⟨p, q, rfl⟩ : ∃ (p : Fin 8) (q : Fin 256), j = ix2 p q := ⟨j 0, j 1, eq_ix2 j⟩
  show out0_4 (F := Ideal) (iblk m c 0 t) (iblk m c 1 t) (ix2 p q) = Cert.Sim.arrOf 2 (V m c main_v0) (V m c main_v1) (((cfg0.win 4).blk t).view.emb (ix2 p q))
  refine (out4_apply (iblk m c 0 t) (iblk m c 1 t) p q).trans ?_
  obtain ⟨-, -, -, -, -, -, e30, e31, e40, e41, -⟩ := idx_facts t
  have h0 : ((((cfg0.win 4).blk t).view.emb (ix2 p q) : S96x2048.Idx) 0).val = win0_2.index t (0 : Fin 2) * 8 + p.val := by
    show win0_4.index t (0 : Fin 2) * 8 + 1 * p.val = _; omega
  have h1 : ((((cfg0.win 4).blk t).view.emb (ix2 p q) : S96x2048.Idx) 1).val = win0_2.index t (1 : Fin 2) * 256 + q.val := by
    show win0_4.index t (1 : Fin 2) * 256 + 1 * q.val = _; omega
  show Cert.Sim.manhattan _ _ = Cert.Sim.manhattan _ _
  exact congrArg₂ Cert.Sim.manhattan (funext fun d => xblk_apply m c t p q d _ h0 h1) (funext fun d => yblk_apply m c t p q d _ h0 h1)

theorem mem_blk4 (t : Fin cfg0.N) (i : S96x2048.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v2_2).slice (win0_4.rect t)).set ↔ _
  rw [View.set_slice_whole, Rect.mem_set_unit]
  exact Iff.rfl

theorem cover4 (i : S96x2048.Idx) : ∃ t : Fin cfg0.N, (cfg0.win 4).flush t = true ∧ i ∈ ((cfg0.win 4).blk t).view.set := by
  have hi0 : (i 0).val < 96 := (i 0).isLt
  have hi1 : (i 1).val < 2048 := (i 1).isLt
  obtain ⟨t, ht⟩ := idx_onto ⟨(i 0).val / 8, by omega⟩ ⟨(i 1).val / 256, by omega⟩
  have q0 : win0_2.index t (0 : Fin 2) = (i 0).val / 8 := congrFun ht 0
  have q1 : win0_2.index t (1 : Fin 2) = (i 1).val / 256 := congrFun ht 1
  obtain ⟨-, -, -, -, -, -, e30, e31, e40, e41, -⟩ := idx_facts t
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 256 ≤ (i 1).val ∧ (i 1).val < win0_4.index t (1 : Fin 2) * 256 + 256; omega

/-- So the array ends holding the L1 distances, column by column. -/
theorem final4 (c : Dev nD) : (dats m 0 c).arrAt 4 cfg0.N = Cert.Sim.arrOf 2 (V m c main_v0) (V m c main_v1) :=
  (dats m 0 c).arrAt_eq_of_cover 4 (Cert.Sim.arrOf 2 (V m c main_v0) (V m c main_v1)) (fun t _ => flushed4_eq m c t) cover4

end Cert.KernelIdeal.Val

end
-- ==== Proof.KernelTail.lean ====
import proofs.«178509_j55851754717413_1_alg».proof.Proof.FrameKernelIdeal
import proofs.«178509_j55851754717413_1_alg».proof.Proof.Spec
import Idealize.ShloMosaic.Lib.Pipeline.Value
import Idealize.ShloMosaic.Lib.StableHlo.Run

noncomputable section

open scoped BigOperators

namespace Cert.KernelIdeal.Tail

open Idealize.ShloMosaic Idealize.ShloMosaic.TcCoe Idealize.SL.Sem Idealize.ShloMosaic.ValueIdx
open Cert.KernelIdeal Cert.KernelIdeal.Gen Cert.KernelIdeal.Fr
open Idealize.ShloMosaic.Pipeline (Dat)

variable {F : FTy → Type} [FloatOps F]
variable (m : (ℓ : Loc nD τ sig) → Buf (Elt F) ℓ)

/-- The three arrays as pieces of extent one along a new last axis: each array with a trailing unit axis added. -/
abbrev pieces (A2 A3 A4 : S96x2048.Idx → Elt F .f32) : List ((s : Shape) × (s.Idx → Elt F .f32)) :=
  [⟨S96x2048x1, broadcastInDim S96x2048x1 ![0, 1] bcast_S96x2048_S96x2048x1_0_1 A2⟩,
   ⟨S96x2048x1, broadcastInDim S96x2048x1 ![0, 1] bcast_S96x2048_S96x2048x1_0_1 A3⟩,
   ⟨S96x2048x1, broadcastInDim S96x2048x1 ![0, 1] bcast_S96x2048_S96x2048x1_0_1 A4⟩]

/-- The value the five lines after the region leave, over any three arrays: each array gets a trailing unit axis, the
    three are laid side by side along that axis, and the result is read at the shape 32 × 6144 × 3. -/
def tailOf (A2 A3 A4 : S96x2048.Idx → Elt F .f32) : S32x6144x3.Idx → Elt F .f32 :=
  shapeCast S32x6144x3
    (concatenate S96x2048x3 2 (pieces A2 A3 A4) concatenates_S96x2048x1_S96x2048x1_S96x2048x1_S96x2048x3_d2)
    shapeCasts_S96x2048x3_S32x6144x3

section Nary3
variable {τ' : Topo} {sig' : RefSig} {Val : EltTy → Type}
/-- An operation of three operands leaves, at its result, its function of the three operands' contents, each read at
    its own reference. -/
theorem nary3_result {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl
end Nary3

/-- The five lines run from the region's arrays: the result buffer holds `tailOf` of the three output arrays.  The
    reshape reads the concatenation's buffer, the concatenation the three broadcasts' buffers, each broadcast one of the
    region's output arrays; each line writes only its own result buffer, so a buffer a later line reads still holds what
    its own line left there. -/
theorem tail_term (dats : (p : Fin 1) → (c : Dev nD) → Dat τ (Elt F) Unit ℕ (UR sig nD τ) ℕ (cfgs p) c) (c : Dev nD) :
    (Pipeline.afterTail₀ cfgs dats 0 (V0 m) [hostOps1] c main_v7 : S32x6144x3.Idx → Elt F .f32)
      = tailOf ((dats 0 c).arrAt 2 cfg0.N) ((dats 0 c).arrAt 3 cfg0.N) ((dats 0 c).arrAt 4 cfg0.N) := by
  unfold Pipeline.afterTail₀
  show StableHlo.after hostOps1 _ (Proc.devRef .tc main_v7) = _
  simp only [StableHlo.after_cons, StableHlo.after_nil]
  rw [StableHlo.reshape_result, nary3_result]
  repeat (first | rw [StableHlo.unary_result] | (rw [StableHlo.unary_result_ne]; rotate_left; decide))
  have e2 : Pipeline.withArrays (cfgs 0).spec c (V0 m c) (fun w => (dats 0 c).arrAt w (cfgs 0).N) (Proc.devRef .tc main_v2_0)
      = (dats 0 c).arrAt 2 cfg0.N := Pipeline.withArrays_arr spec0 launch0.win.arr_inj c _ _ 2
  have e3 : Pipeline.withArrays (cfgs 0).spec c (V0 m c) (fun w => (dats 0 c).arrAt w (cfgs 0).N) (Proc.devRef .tc main_v2_1)
      = (dats 0 c).arrAt 3 cfg0.N := Pipeline.withArrays_arr spec0 launch0.win.arr_inj c _ _ 3
  have e4 : Pipeline.withArrays (cfgs 0).spec c (V0 m c) (fun w => (dats 0 c).arrAt w (cfgs 0).N) (Proc.devRef .tc main_v2_2)
      = (dats 0 c).arrAt 4 cfg0.N := Pipeline.withArrays_arr spec0 launch0.win.arr_inj c _ _ 4
  rw [e2, e3, e4]
  rfl

/-- An array with a trailing unit axis added, read at (r, n, 0), is the array at (r, n). -/
theorem unitAxis_apply (A : S96x2048.Idx → Elt F .f32) (r : Fin 96) (n : Fin 2048) :
    broadcastInDim S96x2048x1 ![0, 1] bcast_S96x2048_S96x2048x1_0_1 A (ix3 r n 0) = A (ix2 r n) :=
  broadcastInDim_apply _ _ A (ix3 r n 0) (ix2 r n) fun a => match a with | ⟨0, _⟩ => rfl | ⟨1, _⟩ => rfl

/-- Off the last axis the index (r, n, 0) of a piece and the index (r, n, k) of the whole have the same coordinates. -/
theorem piece_coords (r : Fin 96) (n : Fin 2048) (k : Fin 3) (b : Fin S96x2048x1.rank)
    (hb : b.cast (rfl : S96x2048x1.rank = S96x2048x3.rank) ≠ 2) :
    ((ix3 r n 0 : S96x2048x1.Idx) b).val = ((ix3 r n k : S96x2048x3.Idx) (b.cast rfl)).val :=
  match b, hb with | ⟨0, _⟩, _ => rfl | ⟨1, _⟩, _ => rfl | ⟨2, _⟩, hb => absurd rfl hb

/-- Three arrays laid side by side along a new last axis, read at (r, n, k): array number k at (r, n).  Each piece has
    extent one along the axis, so coordinate k lies in piece k, k pieces of extent one before it, at position 0. -/
theorem stack_apply (A2 A3 A4 : S96x2048.Idx → Elt F .f32) (r : Fin 96) (n : Fin 2048) (k : Fin 3) :
    concatenate S96x2048x3 2 (pieces A2 A3 A4) concatenates_S96x2048x1_S96x2048x1_S96x2048x1_S96x2048x3_d2 (ix3 r n k)
      = Cert.Sim.pick3 k (A2 (ix2 r n)) (A3 (ix2 r n)) (A4 (ix2 r n)) := by
  match k with
  | ⟨0, h⟩ =>
    refine Eq.trans (concatenate_apply_piece (t := S96x2048x3) 2 (pieces A2 A3 A4) _ (ix3 r n ⟨0, h⟩) 0 (by show (0 : ℕ) < 3; decide)
      S96x2048x1 _ rfl rfl 0 rfl (ix3 r n 0) (piece_coords r n ⟨0, h⟩) rfl) ?_
    exact unitAxis_apply A2 r n
  | ⟨1, h⟩ =>
    refine Eq.trans (concatenate_apply_piece (t := S96x2048x3) 2 (pieces A2 A3 A4) _ (ix3 r n ⟨1, h⟩) 1 (by show (1 : ℕ) < 3; decide)
      S96x2048x1 _ rfl rfl 1 rfl (ix3 r n 0) (piece_coords r n ⟨1, h⟩) rfl) ?_
    exact unitAxis_apply A3 r n
  | ⟨2, h⟩ =>
    refine Eq.trans (concatenate_apply_piece (t := S96x2048x3) 2 (pieces A2 A3 A4) _ (ix3 r n ⟨2, h⟩) 2 (by show (2 : ℕ) < 3; decide)
      S96x2048x1 _ rfl rfl 2 rfl (ix3 r n 0) (piece_coords r n ⟨2, h⟩) rfl) ?_
    exact unitAxis_apply A4 r n

/-- The tail's value at (b, j, k): array number k at row b·3 + j/2048 and lane j%2048.  The index of 96 × 2048 × 3 at the
    same row-major position as (b, j, k) of 32 × 6144 × 3 is (b·3 + j/2048, j%2048, k), since
    (b·6144 + j)·3 + k = ((b·3 + j/2048)·2048 + j%2048)·3 + k. -/
theorem tailOf_apply (A2 A3 A4 : S96x2048.Idx → Elt F .f32) (i : S32x6144x3.Idx) (r : Fin 96) (n : Fin 2048)
    (hr : r.val = (i 0).val * 3 + (i 1).val / 2048) (hn : n.val = (i 1).val % 2048) :
    tailOf A2 A3 A4 i
      = Cert.Sim.pick3 ⟨(i 2).val, (i 2).isLt⟩ (A2 (ix2 r n)) (A3 (ix2 r n)) (A4 (ix2 r n)) := by
  have h0 : (i 0).val < 32 := (i 0).isLt
  have h1 : (i 1).val < 6144 := (i 1).isLt
  have h2 : (i 2).val < 3 := (i 2).isLt
  unfold tailOf
  refine (shapeCast_apply _ _ i (ix3 r n ⟨(i 2).val, h2⟩) ?_).trans ?_
  · rw [Shape.rowMajor_val_three, Shape.rowMajor_val_three]
    show (r.val * 2048 + n.val) * 3 + (i 2).val = ((i 0).val * 6144 + (i 1).val) * 3 + (i 2).val
    omega
  · exact stack_apply A2 A3 A4 r n ⟨(i 2).val, h2⟩

theorem tail_apply (dats : (p : Fin 1) → (c : Dev nD) → Dat τ (Elt F) Unit ℕ (UR sig nD τ) ℕ (cfgs p) c) (c : Dev nD) (i : S32x6144x3.Idx) :
    Pipeline.afterTail₀ cfgs dats 0 (V0 m) [hostOps1] c main_v7 i
      = Cert.Sim.pick3 ⟨(i 2).val, (i 2).isLt⟩
          (((dats 0 c).arrAt 2 cfg0.N : S96x2048.Idx → Elt F .f32) (ix2 ⟨(i 0).val * 3 + (i 1).val / 2048, by have h0 := (i 0).isLt; have h1 := (i 1).isLt; change _ < 32 at h0; change _ < 6144 at h1; omega⟩ ⟨(i 1).val % 2048, Nat.mod_lt _ (by decide)⟩))
          (((dats 0 c).arrAt 3 cfg0.N : S96x2048.Idx → Elt F .f32) (ix2 ⟨(i 0).val * 3 + (i 1).val / 2048, by have h0 := (i 0).isLt; have h1 := (i 1).isLt; change _ < 32 at h0; change _ < 6144 at h1; omega⟩ ⟨(i 1).val % 2048, Nat.mod_lt _ (by decide)⟩))
          (((dats 0 c).arrAt 4 cfg0.N : S96x2048.Idx → Elt F .f32) (ix2 ⟨(i 0).val * 3 + (i 1).val / 2048, by have h0 := (i 0).isLt; have h1 := (i 1).isLt; change _ < 32 at h0; change _ < 6144 at h1; omega⟩ ⟨(i 1).val % 2048, Nat.mod_lt _ (by decide)⟩)) := by
  refine (congrFun (tail_term m dats c) i).trans ?_
  exact tailOf_apply _ _ _ i ⟨_, _⟩ ⟨_, _⟩ rfl rfl

end Cert.KernelIdeal.Tail

end
-- ==== Proof.KernelValue.lean ====
import proofs.«178509_j55851754717413_1_alg».proof.Proof.FrameKernelIdeal
import proofs.«178509_j55851754717413_1_alg».proof.Proof.KernelArrays
import proofs.«178509_j55851754717413_1_alg».proof.Proof.KernelTail
import proofs.«178509_j55851754717413_1_alg».proof.Proof.Spec

noncomputable section

open scoped BigOperators

namespace Cert.KernelIdeal.Val

open Idealize.ShloMosaic Idealize.ShloMosaic.TcCoe Idealize.SL.Sem Idealize.ShloMosaic.ValueIdx
open Cert.KernelIdeal Cert.KernelIdeal.Gen Cert.KernelIdeal.Fr
open Idealize.ShloMosaic.Pipeline (Dat)

variable (m : (ℓ : Loc nD τ sig) → Buf (Elt Ideal) ℓ)

/-! ## The kernel's result is the specification

After the later lines the result buffer at (b, j, k) is output array `k` at row b·3 + j / 2048, lane j % 2048; that array is
measure `k` of the reshaped arguments' columns; and row b·3 + j / 2048 of the 96-row view is the pair (b, j / 2048) of the
arguments' two leading axes, because j / 2048 < 3. -/

/-- Picking array `k` at an index is measure `k` there. -/
theorem pick3_arrOf (k : Fin 3) (X Y : S96x300x2048.Idx → EReal) (r : Fin 96) (n : Fin 2048) :
    Cert.Sim.pick3 k (Cert.Sim.arrOf 0 X Y (ix2 r n)) (Cert.Sim.arrOf 1 X Y (ix2 r n)) (Cert.Sim.arrOf 2 X Y (ix2 r n))
      = Cert.Sim.measure k (Cert.Sim.rowcol X r n) (Cert.Sim.rowcol Y r n) := by
  match k with
  | ⟨0, _⟩ => rfl
  | ⟨1, _⟩ => rfl
  | ⟨2, _⟩ => rfl

theorem kernel_result (c : Dev nD) :
    Pipeline.afterTail₀ cfgs (dats m) 0 (V0 m) [hostOps1] c main_v7
      = Cert.Sim.result (m ((c : Thread nD τ).loc main_arg0)) (m ((c : Thread nD τ).loc main_arg1)) := by
  funext i
  rw [Tail.tail_apply m (dats m) c i, final2, final3, final4, pick3_arrOf]
  have h0 : (i 0).val < 32 := (i 0).isLt
  have h1 : (i 1).val < 6144 := (i 1).isLt
  unfold Cert.Sim.result
  refine congrArg₂ (Cert.Sim.measure _) (funext fun d => ?_) (funext fun d => ?_)
  · show (V m c main_v0 : S96x300x2048.Idx → EReal) (ix3 _ d _) = m ((c : Thread nD τ).loc main_arg0) (ix4 _ _ d _)
    rw [X_apply]
    refine congrArg _ ?_
    congr 1
    · exact Fin.ext (by show ((i 0).val * 3 + (i 1).val / 2048) / 3 = (i 0).val; omega)
    · exact Fin.ext (by show ((i 0).val * 3 + (i 1).val / 2048) % 3 = (i 1).val / 2048; omega)
  · show (V m c main_v1 : S96x300x2048.Idx → EReal) (ix3 _ d _) = m ((c : Thread nD τ).loc main_arg1) (ix4 _ _ d _)
    rw [Y_apply]
    refine congrArg _ ?_
    congr 1
    · exact Fin.ext (by show ((i 0).val * 3 + (i 1).val / 2048) / 3 = (i 0).val; omega)
    · exact Fin.ext (by show ((i 0).val * 3 + (i 1).val / 2048) % 3 = (i 1).val / 2048; omega)

/-- The kernel's run, read: the result buffer ends at the specification of the launch contents of the two arguments, which
    end unchanged. -/
theorem run (ρ : Dev nD → PrngReg) : θ_run defs (onTc (τ := τ) (main (F := Ideal))) ⟨m, fun _ => 0, ρ⟩ fun r => ∀ c : Dev nD,
      r.2.mem ((c.tc : Thread nD τ).loc main_v7) = Cert.Sim.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 (by decide) (by decide))).trans (kernel_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Val

end
-- ==== Proof.RefIsSpec.lean ====
/-
  The reference is the specification.

  The reference transposes both arguments to 32 × 3 × 2048 × 300, so that the length-300 axis is last, and takes three sums over
  it: read at (b, p, n) each sum runs over d ↦ x (b, p, d, n), y (b, p, d, n), the two columns at (b, p, n), and each of the three
  32 × 3 × 2048 arrays is one measure of those columns. A unit last axis is added to each, the three are joined along it
  (position k of the joined axis reads piece k), and the 32 × 3 × 2048 × 3 stack is reshaped to 32 × 6144 × 3: row-major,
  (b, j, k) is (b, j / 2048, j % 2048, k).
-/
import proofs.«178509_j55851754717413_1_alg».proof.Proof.Gen.ReferenceIdeal.Run
import proofs.«178509_j55851754717413_1_alg».proof.Proof.Gen.ReferenceIdeal.Read
import proofs.«178509_j55851754717413_1_alg».proof.Proof.Spec
import Idealize.ShloMosaic.PureOps.Ideal.Laws
import Idealize.ShloMosaic.Lib.Pipeline.Value

noncomputable section

open scoped BigOperators

namespace Cert.ReferenceIdeal.RefSpec

open Idealize.ShloMosaic Idealize.ShloMosaic.TcCoe Idealize.SL.Sem Idealize.ShloMosaic.ValueIdx
open Cert.ReferenceIdeal Cert.ReferenceIdeal.Gen Cert.ReferenceIdeal.Read

/-- A position of the stacked 32 × 3 × 2048 × 3 array, with its last coordinate set to the only one a 32 × 3 × 2048 × 1 piece has. -/
abbrev idx21 (j : S32x3x2048x3.Idx) : S32x3x2048x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨0, (by show (0 : Nat) < 1; exact Nat.zero_lt_one)⟩

/-- The stack read at a position whose last coordinate is 0: the cosine piece, the other three coordinates kept. -/
theorem v21_piece0 (x y : S32x3x300x2048.Idx → EReal) (j : S32x3x2048x3.Idx) (h : (j 3).val = 0) :
    val_main_v21 (F := Ideal) x y j = val_main_v18 (F := Ideal) x y (idx21 j) := by
  unfold val_main_v21
  refine concatenate_apply_piece (t := S32x3x2048x3) 3 _ _ j 0 ?_ S32x3x2048x1 _ rfl rfl 0 rfl (idx21 j) ?_ ?_
  · show (0 : Nat) < 3
    decide
  · intro b hb
    match b with
    | ⟨0, _⟩ => rfl
    | ⟨1, _⟩ => rfl
    | ⟨2, _⟩ => rfl
    | ⟨3, _⟩ => exact absurd rfl hb
  · -- the pieces before this one have extent 0 along the last axis in all
    show 0 + 0 = (j 3).val
    omega

/-- The stack read at a position whose last coordinate is 1: the Euclidean piece, the other three coordinates kept. -/
theorem v21_piece1 (x y : S32x3x300x2048.Idx → EReal) (j : S32x3x2048x3.Idx) (h : (j 3).val = 1) :
    val_main_v21 (F := Ideal) x y j = val_main_v19 (F := Ideal) x y (idx21 j) := by
  unfold val_main_v21
  refine concatenate_apply_piece (t := S32x3x2048x3) 3 _ _ j 1 ?_ S32x3x2048x1 _ rfl rfl 1 rfl (idx21 j) ?_ ?_
  · show (1 : Nat) < 3
    decide
  · intro b hb
    match b with
    | ⟨0, _⟩ => rfl
    | ⟨1, _⟩ => rfl
    | ⟨2, _⟩ => rfl
    | ⟨3, _⟩ => exact absurd rfl hb
  · -- the pieces before this one have extent 1 along the last axis in all
    show 1 + 0 = (j 3).val
    omega

/-- The stack read at a position whose last coordinate is 2: the L1 piece, the other three coordinates kept. -/
theorem v21_piece2 (x y : S32x3x300x2048.Idx → EReal) (j : S32x3x2048x3.Idx) (h : (j 3).val = 2) :
    val_main_v21 (F := Ideal) x y j = val_main_v20 (F := Ideal) x y (idx21 j) := by
  unfold val_main_v21
  refine concatenate_apply_piece (t := S32x3x2048x3) 3 _ _ j 2 ?_ S32x3x2048x1 _ rfl rfl 2 rfl (idx21 j) ?_ ?_
  · show (2 : Nat) < 3
    decide
  · intro b hb
    match b with
    | ⟨0, _⟩ => rfl
    | ⟨1, _⟩ => rfl
    | ⟨2, _⟩ => rfl
    | ⟨3, _⟩ => exact absurd rfl hb
  · -- the pieces before this one have extent 2 along the last axis in all
    show 2 + 0 = (j 3).val
    omega

/-- Reading the transposed array at (b, p, n, d) reads the argument at (b, p, d, n): entry number d of the column at (b, p, n). -/
theorem tr_col (b : Fin 32) (p : Fin 3) (n : Fin 2048) (k : Fin 300) :
    idx_main_v0 (idx_main_v3 (ix3 b p n) k) = ix4 b p k n := by
  funext a
  match a with
  | ⟨0, _⟩ => rfl
  | ⟨1, _⟩ => rfl
  | ⟨2, _⟩ => rfl
  | ⟨3, _⟩ => rfl

/-- The sum of products over the last axis of the transposed arrays is the inner product of the two columns. -/
theorem dot_at (x y : S32x3x300x2048.Idx → EReal) (b : Fin 32) (p : Fin 3) (n : Fin 2048) :
    val_main_v3 (F := Ideal) x y (ix3 b p n) = Cert.Sim.dot (Cert.Sim.col x b p n) (Cert.Sim.col y b p n) := by
  rw [val_main_v3_apply]
  simp only [val_main_cst_apply, Ideal.ofBits_def, Ideal.ofBits_zero_f32, zero_add]
  refine Finset.sum_congr rfl fun k _ => ?_
  rw [val_main_v2_apply, val_main_v0_apply, val_main_v1_apply]
  show x (idx_main_v0 (idx_main_v3 (ix3 b p n) k)) * y (idx_main_v0 (idx_main_v3 (ix3 b p n) k)) = _
  rw [tr_col]
  rfl

/-- The sum of squares of the first transposed array is the first column's inner product with itself. -/
theorem sq_at_x (x : S32x3x300x2048.Idx → EReal) (b : Fin 32) (p : Fin 3) (n : Fin 2048) :
    val_main_v5 (F := Ideal) x (ix3 b p n) = Cert.Sim.dot (Cert.Sim.col x b p n) (Cert.Sim.col x b p n) := by
  rw [val_main_v5_apply]
  simp only [val_main_cst_0_apply, Ideal.ofBits_def, Ideal.ofBits_zero_f32, zero_add]
  refine Finset.sum_congr rfl fun k _ => ?_
  rw [val_main_v4_apply, val_main_v0_apply]
  show x (idx_main_v0 (idx_main_v3 (ix3 b p n) k)) * x (idx_main_v0 (idx_main_v3 (ix3 b p n) k)) = _
  rw [tr_col]
  rfl

/-- The sum of squares of the second transposed array is the second column's inner product with itself. -/
theorem sq_at_y (y : S32x3x300x2048.Idx → EReal) (b : Fin 32) (p : Fin 3) (n : Fin 2048) :
    val_main_v8 (F := Ideal) y (ix3 b p n) = Cert.Sim.dot (Cert.Sim.col y b p n) (Cert.Sim.col y b p n) := by
  rw [val_main_v8_apply]
  simp only [val_main_cst_1_apply, Ideal.ofBits_def, Ideal.ofBits_zero_f32, zero_add]
  refine Finset.sum_congr rfl fun k _ => ?_
  rw [val_main_v7_apply, val_main_v1_apply]
  show y (idx_main_v0 (idx_main_v3 (ix3 b p n) k)) * y (idx_main_v0 (idx_main_v3 (ix3 b p n) k)) = _
  rw [tr_col]
  rfl

/-- The quotient of the inner product by the product of the two roots is the cosine of the two columns. -/
theorem cos_at (x y : S32x3x300x2048.Idx → EReal) (b : Fin 32) (p : Fin 3) (n : Fin 2048) :
    val_main_v11 (F := Ideal) x y (ix3 b p n) = Cert.Sim.cosine (Cert.Sim.col x b p n) (Cert.Sim.col y b p n) := by
  rw [val_main_v11_apply, val_main_v10_apply, val_main_v6_apply, val_main_v9_apply, dot_at, sq_at_x, sq_at_y]
  rfl

/-- The root of the sum of squared differences is the Euclidean distance of the two columns. -/
theorem euc_at (x y : S32x3x300x2048.Idx → EReal) (b : Fin 32) (p : Fin 3) (n : Fin 2048) :
    val_main_v15 (F := Ideal) x y (ix3 b p n) = Cert.Sim.euclid (Cert.Sim.col x b p n) (Cert.Sim.col y b p n) := by
  rw [val_main_v15_apply, val_main_v14_apply]
  simp only [val_main_cst_2_apply, Ideal.ofBits_def, Ideal.ofBits_zero_f32, zero_add, Ideal.hostUnary_sqrt_def]
  refine congrArg Ideal.sqrt (Finset.sum_congr rfl fun k _ => ?_)
  rw [val_main_v13_apply, val_main_v12_apply, val_main_v0_apply, val_main_v1_apply]
  show (x (idx_main_v0 (idx_main_v3 (ix3 b p n) k)) - y (idx_main_v0 (idx_main_v3 (ix3 b p n) k)))
      * (x (idx_main_v0 (idx_main_v3 (ix3 b p n) k)) - y (idx_main_v0 (idx_main_v3 (ix3 b p n) k))) = _
  rw [tr_col]
  rfl

/-- The sum of absolute differences is the L1 distance of the two columns. -/
theorem man_at (x y : S32x3x300x2048.Idx → EReal) (b : Fin 32) (p : Fin 3) (n : Fin 2048) :
    val_main_v17 (F := Ideal) x y (ix3 b p n) = Cert.Sim.manhattan (Cert.Sim.col x b p n) (Cert.Sim.col y b p n) := by
  rw [val_main_v17_apply]
  simp only [val_main_cst_3_apply, Ideal.ofBits_def, Ideal.ofBits_zero_f32, zero_add]
  refine Finset.sum_congr rfl fun k _ => ?_
  rw [val_main_v16_apply, val_main_v12_apply, val_main_v0_apply, val_main_v1_apply]
  show max (x (idx_main_v0 (idx_main_v3 (ix3 b p n) k)) - y (idx_main_v0 (idx_main_v3 (ix3 b p n) k)))
      (-(x (idx_main_v0 (idx_main_v3 (ix3 b p n) k)) - y (idx_main_v0 (idx_main_v3 (ix3 b p n) k)))) = _
  rw [tr_col]
  rfl

/-- Position (b, j, k) of the 32 × 6144 × 3 result sits, row-major, at (b, j / 2048, j % 2048, k) of the 32 × 3 × 2048 × 3
    stack; without its last coordinate that is the column position (b, j / 2048, j % 2048). -/
theorem idx_split (i : S32x6144x3.Idx) :
    idx_main_v18 (idx21 (idx_main_v22 i)) =
      ix3 (⟨(i 0).val, (i 0).isLt⟩ : Fin 32)
        (⟨(i 1).val / 2048, by have := (i 1).isLt; change _ < 6144 at this; omega⟩ : Fin 3)
        (⟨(i 1).val % 2048, Nat.mod_lt _ (by decide)⟩ : Fin 2048) := by
  have h0 : (i 0).val < 32 := (i 0).isLt
  have h1 : (i 1).val < 6144 := (i 1).isLt
  have h2 : (i 2).val < 3 := (i 2).isLt
  funext a
  apply Fin.ext
  match a with
  | ⟨0, _⟩ =>
    show (((i 0).val * 6144 + (i 1).val) * 3 + (i 2).val) / 18432 = (i 0).val
    omega
  | ⟨1, _⟩ =>
    show (((i 0).val * 6144 + (i 1).val) * 3 + (i 2).val) / 6144 % 3 = (i 1).val / 2048
    omega
  | ⟨2, _⟩ =>
    show (((i 0).val * 6144 + (i 1).val) * 3 + (i 2).val) / 3 % 2048 = (i 1).val % 2048
    omega

theorem ref_result (x y : S32x3x300x2048.Idx → EReal) :
    val_main_v22 (F := Ideal) x y = Cert.Sim.result x y := by
  funext i
  rw [val_main_v22_apply]
  have h0 : (i 0).val < 32 := (i 0).isLt
  have h1 : (i 1).val < 6144 := (i 1).isLt
  have h2 : (i 2).val < 3 := (i 2).isLt
  -- the last coordinate of the stack's position is the result's last coordinate: the measure's number
  have h3 : ((idx_main_v22 i) 3).val = (i 2).val := by
    show (((i 0).val * 6144 + (i 1).val) * 3 + (i 2).val) % 3 = (i 2).val
    omega
  show _ = Cert.Sim.measure (⟨(i 2).val, (i 2).isLt⟩ : Fin 3) _ _
  rcases (show (i 2).val = 0 ∨ (i 2).val = 1 ∨ (i 2).val = 2 by omega) with hk | hk | hk
  · -- measure 0: the cosine piece
    have e : (⟨(i 2).val, (i 2).isLt⟩ : Fin 3) = ⟨0, by decide⟩ := Fin.ext hk
    rw [v21_piece0 x y _ (h3.trans hk), val_main_v18_apply, idx_split, cos_at, e]
    rfl
  · -- measure 1: the Euclidean piece
    have e : (⟨(i 2).val, (i 2).isLt⟩ : Fin 3) = ⟨1, by decide⟩ := Fin.ext hk
    rw [v21_piece1 x y _ (h3.trans hk), val_main_v19_apply]
    show val_main_v15 (F := Ideal) x y (idx_main_v18 (idx21 (idx_main_v22 i))) = _
    rw [idx_split, euc_at, e]
    rfl
  · -- measure 2: the L1 piece
    have e : (⟨(i 2).val, (i 2).isLt⟩ : Fin 3) = ⟨2, by decide⟩ := Fin.ext hk
    rw [v21_piece2 x y _ (h3.trans hk), val_main_v20_apply]
    show val_main_v17 (F := Ideal) x y (idx_main_v18 (idx21 (idx_main_v22 i))) = _
    rw [idx_split, man_at, e]
    rfl

end Cert.ReferenceIdeal.RefSpec

end
-- ==== Proof.lean ====
/-
  The certificate of the similarity kernel against its reference.

  For two arrays x, y of shape 32 × 3 × 300 × 2048 both programs compute, for every (b, p, n), three distances between the
  length-300 columns d ↦ x (b, p, d, n) and d ↦ y (b, p, d, n): the cosine (Σ x·y) / (√Σ x² · √Σ y²), the Euclidean
  distance √Σ (x − y)² and the L1 distance Σ |x − y|, laid out as a 32 × 6144 × 3 array (second axis p · 2048 + n, last axis the
  measure).  The kernel views the arguments as 96 × 300 × 2048 and reduces the middle axis block by block on a 12 × 8
  grid; the reference transposes the length-300 axis last and reduces it on the host.  Over the extended reals the two
  spell each measure with the same operations, so the results agree index by index with no appeal to finiteness: a sum
  over the middle axis of a block is the same sum over the last axis of the transposed array, the host's sum starts
  from an exact zero, and the two stackings and reshapes name the same element.

  The frames of the two kernel programs are one text at two float families (Proof/FrameKernel.lean, Proof/FrameKernelIdeal.lean);
  the reference has no kernel, and its frame is its run with the result dropped.  Nothing was rewritten by idealization, so
  the idealized kernel is the printed one read at the ideal instance.
-/
import proofs.«178509_j55851754717413_1_alg».proof.Defs
import proofs.«178509_j55851754717413_1_alg».proof.Proof.Gen.Kernel
import proofs.«178509_j55851754717413_1_alg».proof.Proof.Gen.KernelIdeal
import proofs.«178509_j55851754717413_1_alg».proof.Proof.Gen.ReferenceIdeal
import proofs.«178509_j55851754717413_1_alg».proof.Proof.Gen.Pre_finite_inputs
import proofs.«178509_j55851754717413_1_alg».proof.Proof.Gen.ReferenceIdeal.Run
import proofs.«178509_j55851754717413_1_alg».proof.Proof.Gen.ReferenceIdeal.Read
import proofs.«178509_j55851754717413_1_alg».proof.Proof.FrameKernel
import proofs.«178509_j55851754717413_1_alg».proof.Proof.FrameKernelIdeal
import proofs.«178509_j55851754717413_1_alg».proof.Proof.KernelValue
import proofs.«178509_j55851754717413_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result buffer at the specification of the (agreeing) arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v22_eq _ _).trans (Cert.ReferenceIdeal.RefSpec.ref_result _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
